-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x4096 .f32) (main_arg1 : FVec F S4096x256 .f32) (main_arg2 : FVec F S256x256 .f32) (main_arg3 : FVec F S256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S7x256 : Shape := ⟨2, ![7, 256]⟩
abbrev S264x256 : Shape := ⟨2, ![264, 256]⟩
abbrev S512x4096 : Shape := ⟨2, ![512, 4096]⟩
abbrev S512x256 : Shape := ⟨2, ![512, 256]⟩

abbrev nBuf : Space → Nat
  | .hbm => 10
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S1x256, .f32⟩
  | .hbm, ⟨6, _⟩ => ⟨S_, .f32⟩
  | .hbm, ⟨7, _⟩ => ⟨S7x256, .f32⟩
  | .hbm, ⟨8, _⟩ => ⟨S264x256, .f32⟩
  | .hbm, ⟨9, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S264x256, .f32⟩
  | .local _ .vmem, ⟨4, _⟩ => ⟨S512x256, .f32⟩
  | .local _ .vmem, ⟨5, _⟩ => ⟨S512x256, .f32⟩
  | .local _ .vmem, ⟨6, _⟩ => ⟨S4096x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S264x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  shapeCasts_S256_S1x256 : S256.ShapeCasts S1x256
  bcast_S_S7x256 : S_.BroadcastsInDim S7x256 (![] : Fin 0 → Fin S7x256.rank)
  concatenates_S256x256_S1x256_S7x256_S264x256_d0 : Shape.Concatenates [S256x256, S1x256, S7x256] S264x256 0
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S264x256_S256x256_0_0 : ∀ a, (![0, 0] : Fin 2 → Nat) a + S256x256.size a ≤ S264x256.size a
  h_S256x256 : 0 < S256x256.numel
  shapeCasts_S256x256_S256x256 : S256x256.ShapeCasts S256x256
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S512x4096_S512x4096_0_0 : ∀ a, (![0, 0] : Fin 2 → Nat) a + S512x4096.size a ≤ S512x4096.size a
  h_S512x4096 : 0 < S512x4096.numel
  inb_S264x256_S1x256_256_0 : ∀ a, (![256, 0] : Fin 2 → Nat) a + S1x256.size a ≤ S264x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S264x256.size a ≤ S264x256.size a
  hwx0_2 : ∀ i : grid0.Coords, EltTy.bits .f32 = 32 ∨ (Rect.block (s := S264x256) S264x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S264x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S1x256 : Shape := ⟨2, ![1, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S4096x256, .f32⟩
  | .hbm, ⟨5, _⟩ => ⟨S256x256, .f32⟩
  | .hbm, ⟨6, _⟩ => ⟨S4096x256, .f32⟩
  | .hbm, ⟨7, _⟩ => ⟨S1x256, .f32⟩
  | .hbm, ⟨8, _⟩ => ⟨S4096x256, .f32⟩
  | .hbm, ⟨9, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.KShared.lean ====
/-
  The frame of `Kernel`: what its two control cases share.

  @main is a line of five host operations (the weights transposed, the bias made a row, seven zero rows, the three
  joined into the 264 × 256 side array) followed by one pipelined region of eight grid points. The region's body
  keeps the projected features in a scratch buffer: it fills the scratch at the first point only and reads it at
  every point. Here: the contents of the core's buffers when the region is entered, the blocks each input window
  hands the body, the branch condition decided over the grid, and the frame claim read off a frame run.
-/
import proofs.«142554_g27736898798368_cont_9to1_495_24_alg».proof.Proof.Gen.Kernel.Launch
import proofs.«142554_g27736898798368_cont_9to1_495_24_alg».proof.Proof.Gen.Kernel.Skeleton
import proofs.«142554_g27736898798368_cont_9to1_495_24_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffers hold after the host line: the launch contents with the five results written. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes only its own five results, so an argument array is found as launched. -/
theorem V_of_not_written (c : Dev nD) (b : Ref sig .tc)
    (hb : ∀ op ∈ (hostOps0 : List (HloOp τ sig (Elt F))), Proc.devRef .tc b ∉ op.writes) :
    V m c b = m ((c : Thread nD τ).loc b) :=
  StableHlo.after_of_forall_not_mem (b := Proc.devRef .tc b) _ _ hb

theorem V_main_arg0 (c : Dev nD) : V m c main_arg0 = m ((c : Thread nD τ).loc main_arg0) :=
  V_of_not_written m c main_arg0 (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  V_of_not_written m c main_arg1 (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  V_of_not_written m c main_arg2 (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  V_of_not_written m c main_arg3 (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-! ## The blocks the body is handed -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The adjacency window's buffer holds the point's 512 rows, for any proof data over `V` that leave the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The features window is fetched once; its buffer holds the whole array at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The side window is fetched once; its buffer holds the whole side array at every point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run whose post has every window's array at the library's reading of the proof data, and every other unscoped
    buffer at its region-entry contents, leaves the four argument arrays as launched: A and x are input windows' arrays,
    W and b are read by the host line only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch -/

/-- The body's one condition, "this is grid point 0", as the printed scalar chain over the grid coordinate. -/
abbrev isFirst (i : grid0.Coords) : Prop := (Scalar.cmpi .ne (Scalar.extui (Scalar.cmpi .eq (BitVec.ofNat 32 (i 0).val) 0#32)) 0#32) = 1#1
/-- It holds at point 0 and nowhere else. -/
theorem isFirst_iff : ∀ t : Fin cfg0.N, isFirst (grid0.coords t) ↔ t.val = 0 :=
  (by decide +kernel : ∀ t : Fin grid0.N, isFirst (grid0.coords t) ↔ t.val = 0)

/-- No window is ever idle: the body reads its three inputs' buffers and stores the whole output block at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-! ## The memrefs the body is called with -/

/-- Each window's current staging memref at point `t`, and that it is a whole buffer. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S264x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .f32 := win0_3.stage (cfg0.slots t 3)
abbrev hs3 (t : Fin cfg0.N) : (ms3 t).IsWhole := hstage0_3 ((cfg0.slots t 3).cast nbuf0_3)
/-- The scratch that carries the projected features. -/
abbrev scM : Memref sig .tc .vmem S4096x256 .bf16 := Memref.whole cc0_scratch0
/-- One view each of the output's staging buffer and of the scratch, through which their contents are stated. -/
abbrev VO : View sig .tc .vmem S512x256 .f32 := (Memref.whole cc0_stg3_0 : Memref sig .tc .vmem S512x256 .f32).view
abbrev VS : View sig .tc .vmem S4096x256 .bf16 := scM.view

/-- The region's standing invariant spelled with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.KRunFirst.lean ====
/-
  The body of `Kernel`'s kernel at grid point 0, where its branch is taken: it loads the features and the top 256 rows
  of the side array, stores their product (rounded to bf16) over the whole scratch, then loads the point's rows of
  A, the scratch just written and the bias row, and stores the whole output block. Run on any whole memrefs, the
  three inputs at given contents, the output's buffer and the scratch at anything: the inputs come back as they were,
  and the output's buffer and the scratch each come back with a list of writes on top of what they held.
-/
import proofs.«142554_g27736898798368_cont_9to1_495_24_alg».proof.Proof.KShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The writes the body leaves on the output's buffer (`.1`) and on the scratch (`.2.1`) at the first point, with
    the proof that it runs to its continuation holding the three inputs unchanged and those two buffers so written. -/
noncomputable def runFirst (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) :
    Σ' (L3 : List (View.Piece (Elt F) S512x256 .f32)), { LS : List (View.Piece (Elt F) S4096x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__graph_conv_kernel i arg1 harg1 arg2 harg2 arg3 harg3 arg4 harg4 arg5 harg5) K } := by
  refine ⟨?_, ?_, fun E K => ?run⟩
  case run =>
    simp only [cc0__graph_conv_kernel_eq_skeleton]; unfold cc0__graph_conv_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg1.eq_unread hf0; obtain rfl := harg2.eq_unread hf1; obtain rfl := harg3.eq_unread hf2
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.Kernel.Fr

end
-- ==== Proof.KRunLater.lean ====
/-
  The body of `Kernel`'s kernel at a grid point after the first, where its branch is not taken: it loads the point's
  rows of A, the scratch as the first point left it and the bias row, and stores the whole output block; the scratch
  is only read. Run on any whole memrefs, the three inputs and the scratch at given contents, the output's buffer at
  anything: the inputs and the scratch come back as they were, the output's buffer with a list of writes on top.
-/
import proofs.«142554_g27736898798368_cont_9to1_495_24_alg».proof.Proof.KRunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The writes the body leaves on the output's buffer at a later point, with the proof that it runs to its
    continuation holding the inputs and the scratch unchanged and the output's buffer so written. -/
noncomputable def runLater (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : ¬isFirst i)
    (x0 : Vec F S512x4096 .f32) (x1 : Vec F S4096x256 .f32) (x2 : Vec F S264x256 .f32) (xs : Vec F S4096x256 .bf16) :
    { L3 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs) -∗ K ⟨⟩))
          ⊢ wp frame (wpE (defs₀ (F := F)) Variants.none c none) E (cc0__graph_conv_kernel i arg1 harg1 arg2 harg2 arg3 harg3 arg4 harg4 arg5 harg5) K } := by
  refine ⟨?_, fun E K => ?run⟩
  case run =>
    simp only [cc0__graph_conv_kernel_eq_skeleton]; unfold cc0__graph_conv_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS

end Cert.Kernel.Fr

end
-- ==== Proof.KFrame.lean ====
/-
  The frame of `Kernel`: every weakly fair execution of @main terminates without a fault and leaves the four
  argument arrays as launched — and, for the value claim, the result array is named.

  What the buffers hold point by point. The scratch is filled at point 0 and never stored again, so after every
  point it holds what point 0 left (`sc0`). The output's buffer after point `t` holds what that point's run
  stored (`outAt`): at point 0 the first case's writes, later the second case's, computed from the point's rows
  of A, the scratch `sc0` and the side array. The three inputs' buffers hold their blocks throughout. The region's
  invariant is the standing one before point 0 and, from then on, the scratch owned at `sc0`.
-/
import proofs.«142554_g27736898798368_cont_9to1_495_24_alg».proof.Proof.KRunLater

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's writes cover the output's block. -/
theorem coverFirst_out (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) (y : S512x256.Idx) :
    ∃ pc ∈ (runFirst c i arg1 harg1 arg2 harg2 arg3 harg3 arg4 harg4 arg5 harg5 hc x0 x1 x2).1, y ∈ pc.1.set :=
  View.cover_of_tiledL (runFirst c i arg1 harg1 arg2 harg2 arg3 harg3 arg4 harg4 arg5 harg5 hc x0 x1 x2).1 S512x256.size (by sl_kernel_rfl) y

/-- What the first point leaves in the output's buffer. -/
def outFirst (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) : Vec F S512x256 .f32 :=
  VO.read (Elt F) (VO.writes (Elt F) VO.junk (runFirst c i arg1 harg1 arg2 harg2 arg3 harg3 arg4 harg4 arg5 harg5 hc x0 x1 x2).1)

/-- The first point's writes cover the scratch. -/
theorem coverFirst_sc (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) (y : S4096x256.Idx) :
    ∃ pc ∈ (runFirst c i arg1 harg1 arg2 harg2 arg3 harg3 arg4 harg4 arg5 harg5 hc x0 x1 x2).2.1, y ∈ pc.1.set :=
  View.cover_of_tiledL (runFirst c i arg1 harg1 arg2 harg2 arg3 harg3 arg4 harg4 arg5 harg5 hc x0 x1 x2).2.1 S4096x256.size (by sl_kernel_rfl) y

/-- What the first point leaves in the scratch. -/
def scFirst (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) : Vec F S4096x256 .bf16 :=
  VS.read (Elt F) (VS.writes (Elt F) VS.junk (runFirst c i arg1 harg1 arg2 harg2 arg3 harg3 arg4 harg4 arg5 harg5 hc x0 x1 x2).2.1)

/-- A later point's writes cover the output's block. -/
theorem coverLater_out (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : ¬isFirst i)
    (x0 : Vec F S512x4096 .f32) (x1 : Vec F S4096x256 .f32) (x2 : Vec F S264x256 .f32) (xs : Vec F S4096x256 .bf16) (y : S512x256.Idx) :
    ∃ pc ∈ (runLater c i arg1 harg1 arg2 harg2 arg3 harg3 arg4 harg4 arg5 harg5 hc x0 x1 x2 xs).1, y ∈ pc.1.set :=
  View.cover_of_tiledL (runLater c i arg1 harg1 arg2 harg2 arg3 harg3 arg4 harg4 arg5 harg5 hc x0 x1 x2 xs).1 S512x256.size (by sl_kernel_rfl) y

/-- What a later point leaves in the output's buffer. -/
def outLater (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : ¬isFirst i)
    (x0 : Vec F S512x4096 .f32) (x1 : Vec F S4096x256 .f32) (x2 : Vec F S264x256 .f32) (xs : Vec F S4096x256 .bf16) : Vec F S512x256 .f32 :=
  VO.read (Elt F) (VO.writes (Elt F) VO.junk (runLater c i arg1 harg1 arg2 harg2 arg3 harg3 arg4 harg4 arg5 harg5 hc x0 x1 x2 xs).1)

/-! ## The buffers point by point -/

/-- Point 0 is a first point. -/
theorem first_t0 : isFirst (grid0.coords t0_0) := (isFirst_iff t0_0).mpr rfl

/-- The scratch after point 0, hence after every point: the first case's writes, from the whole features array and
    the whole side array. -/
def sc0 (c : Dev nD) : Vec F S4096x256 .bf16 :=
  scFirst c (grid0.coords t0_0) (ms0 t0_0) (hs0 t0_0) (ms1 t0_0) (hs1 t0_0) (ms2 t0_0) (hs2 t0_0) (ms3 t0_0) (hs3 t0_0) scM (Memref.isWhole_whole _) first_t0
    (iblk m c 0 t0_0) (iblk m c 1 t0_0) (iblk m c 2 t0_0)

/-- The output's buffer after point `t`. -/
def outAt (c : Dev nD) (t : Fin cfg0.N) : Vec F S512x256 .f32 :=
  if h : t.val = 0 then
    outFirst c (grid0.coords t) (ms0 t) (hs0 t) (ms1 t) (hs1 t) (ms2 t) (hs2 t) (ms3 t) (hs3 t) scM (Memref.isWhole_whole _) ((isFirst_iff t).mpr h)
      (iblk m c 0 t) (iblk m c 1 t) (iblk m c 2 t)
  else
    outLater c (grid0.coords t) (ms0 t) (hs0 t) (ms1 t) (hs1 t) (ms2 t) (hs2 t) (ms3 t) (hs3 t) scM (Memref.isWhole_whole _) (fun hf => h ((isFirst_iff t).mp hf))
      (iblk m c 0 t) (iblk m c 1 t) (iblk m c 2 t) (sc0 m c)

theorem outAt_first (c : Dev nD) (t : Fin cfg0.N) (h : t.val = 0) :
    outAt m c t = outFirst c (grid0.coords t) (ms0 t) (hs0 t) (ms1 t) (hs1 t) (ms2 t) (hs2 t) (ms3 t) (hs3 t) scM (Memref.isWhole_whole _) ((isFirst_iff t).mpr h)
      (iblk m c 0 t) (iblk m c 1 t) (iblk m c 2 t) := dif_pos h

theorem outAt_later (c : Dev nD) (t : Fin cfg0.N) (h : ¬t.val = 0) :
    outAt m c t = outLater c (grid0.coords t) (ms0 t) (hs0 t) (ms1 t) (hs1 t) (ms2 t) (hs2 t) (ms3 t) (hs3 t) scM (Memref.isWhole_whole _) (fun hf => h ((isFirst_iff t).mp hf))
      (iblk m c 0 t) (iblk m c 1 t) (iblk m c 2 t) (sc0 m c) := dif_neg h

/-- The region's invariant before position `n`: the standing one before the first point, then the scratch owned at
    `sc0` beside the generator register at some state. -/
def PhiS (c : Dev nD) : ℕ → sProp 𝕄
  | 0 => Pipeline.ΦA spec0 c
  | _ + 1 => iprop(iprop(owns (c : Thread nD τ) scM fullShare (sc0 m c)) ∗ (∃ r, prngReg c r))

theorem PhiS_zero (c : Dev nD) : PhiS m c 0 = Pipeline.ΦA spec0 c := rfl
theorem PhiS_succ (c : Dev nD) (n : ℕ) :
    PhiS m c (n + 1) = iprop(iprop(owns (c : Thread nD τ) scM fullShare (sc0 m c)) ∗ (∃ r, prngReg c r)) := rfl
theorem PhiS_pos (c : Dev nD) (n : ℕ) (hz : n ≠ 0) :
    PhiS m c n = iprop(iprop(owns (c : Thread nD τ) scM fullShare (sc0 m c)) ∗ (∃ r, prngReg c r)) := by
  cases n with
  | zero => exact absurd rfl hz
  | succ n => rfl

/-! ## The proof data -/

/-- The pipeline's proof data on core `c`: the arrays as the region finds them; after the body each input's buffer
    at its block and the output's at `outAt`; the invariant `PhiS`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; at point 0 the invariant hands over the scratch
    at anything and the first case's run returns it written, which reads as `sc0` because the writes cover it; at
    a later point the invariant hands over the scratch at `sc0` and the second case's run returns it untouched.
    Either way the output's buffer comes back holding the case's writes, which cover its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from by dsimp only [dats]; simp only [Fin.coe_castSucc]]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases hz : t.val = 0
  · obtain rfl : t = t0_0 := Fin.ext hz
    rw [outAt_first m c t0_0 hz, show PhiS m c t0_0.val = Pipeline.ΦA spec0 c from rfl, PhiA_eq]
    unfold outFirst sc0 scFirst; (try dsimp only)
    iintro ⟨⟨⟨%ds, HS⟩, Hg⟩, Ho, ⟨%d0, H0⟩, ⟨%d1, H1⟩, ⟨%d2, H2⟩, ⟨%d3, H3⟩⟩
    iapply ((runFirst c (grid0.coords t0_0) _ _ _ _ _ _ _ _ _ _ first_t0 (iblk m c 0 t0_0) (iblk m c 1 t0_0) (iblk m c 2 t0_0)).2.2 Set.univ _)
    isplitl [H0]; · iexact H0
    isplitl [H1]; · iexact H1
    isplitl [H2]; · iexact H2
    isplitl [H3]; · iexists _; iexact H3
    isplitl [HS]; · iexists _; iexact HS
    iintro ⟨H0, H1, H2, ⟨%e3, H3⟩, ⟨%es, HS⟩⟩
    isplitl [HS Hg]
    · isplitl [HS]
      · unfold owns; iexists _; isplitr
        swap; · iexact HS
        ipureintro; exact View.read_writes_of_cover _ _ _ _ _ (coverFirst_sc c _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst_out c _ _ _ _ _ _ _ _ _ _ _ _ _ _ _)
  · rw [outAt_later m c t hz, PhiS_pos m c _ hz]
    unfold outLater; (try dsimp only)
    iintro ⟨⟨HS, Hg⟩, Ho, ⟨%d0, H0⟩, ⟨%d1, H1⟩, ⟨%d2, H2⟩, ⟨%d3, H3⟩⟩
    iapply ((runLater c (grid0.coords t) _ _ _ _ _ _ _ _ _ _ (fun hf => hz ((isFirst_iff t).mp hf)) (iblk m c 0 t) (iblk m c 1 t) (iblk m c 2 t) (sc0 m c)).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]; · iexact HS
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater_out c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The launch hands the region the standing invariant, which is `PhiS` before the first point. -/
theorem hin (c : Dev nD) : Pipeline.ΦA spec0 c ⊢ (dats m 0 c).Φ 0 := by
  rw [show (dats m 0 c).Φ 0 = PhiS m c 0 from rfl, PhiS_zero]
  try exact Idealize.SL.BI.Entails.refl _

/-- After the last point the scratch's contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), PhiA_eq]
  iintro ⟨HS, Hg⟩
  isplitl [HS]
  · iexists _; iexact HS
  iexact Hg

/-! ## The run and the frame -/

set_option backward.isDefEq.respectTransparency.types false in
/-- Every weakly fair execution of @main terminates; at the end every window's array holds what the library reads
    off the proof data (an input's its entry contents, the output's the points' blocks written back), and every other
    unscoped buffer what the host line left in it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KiShared.lean ====
/-
  The frame of `KernelIdeal`: what its two control cases share.

  @main is a line of five host operations (the weights transposed, the bias made a row, seven zero rows, the three
  joined into the 264 × 256 side array) followed by one pipelined region of eight grid points. The region's body
  keeps the projected features in a scratch buffer: it fills the scratch at the first point only and reads it at
  every point. Here: the contents of the core's buffers when the region is entered, the blocks each input window
  hands the body, the branch condition decided over the grid, and the frame claim read off a frame run.
-/
import proofs.«142554_g27736898798368_cont_9to1_495_24_alg».proof.Proof.Gen.KernelIdeal.Launch
import proofs.«142554_g27736898798368_cont_9to1_495_24_alg».proof.Proof.Gen.KernelIdeal.Skeleton
import proofs.«142554_g27736898798368_cont_9to1_495_24_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffers hold after the host line: the launch contents with the five results written. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes only its own five results, so an argument array is found as launched. -/
theorem V_of_not_written (c : Dev nD) (b : Ref sig .tc)
    (hb : ∀ op ∈ (hostOps0 : List (HloOp τ sig (Elt F))), Proc.devRef .tc b ∉ op.writes) :
    V m c b = m ((c : Thread nD τ).loc b) :=
  StableHlo.after_of_forall_not_mem (b := Proc.devRef .tc b) _ _ hb

theorem V_main_arg0 (c : Dev nD) : V m c main_arg0 = m ((c : Thread nD τ).loc main_arg0) :=
  V_of_not_written m c main_arg0 (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  V_of_not_written m c main_arg1 (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  V_of_not_written m c main_arg2 (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  V_of_not_written m c main_arg3 (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-! ## The blocks the body is handed -/

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The adjacency window's buffer holds the point's 512 rows, for any proof data over `V` that leave the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The features window is fetched once; its buffer holds the whole array at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The side window is fetched once; its buffer holds the whole side array at every point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run whose post has every window's array at the library's reading of the proof data, and every other unscoped
    buffer at its region-entry contents, leaves the four argument arrays as launched: A and x are input windows' arrays,
    W and b are read by the host line only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch -/

/-- The body's one condition, "this is grid point 0", as the printed scalar chain over the grid coordinate. -/
abbrev isFirst (i : grid0.Coords) : Prop := (Scalar.cmpi .ne (Scalar.extui (Scalar.cmpi .eq (BitVec.ofNat 32 (i 0).val) 0#32)) 0#32) = 1#1
/-- It holds at point 0 and nowhere else. -/
theorem isFirst_iff : ∀ t : Fin cfg0.N, isFirst (grid0.coords t) ↔ t.val = 0 :=
  (by decide +kernel : ∀ t : Fin grid0.N, isFirst (grid0.coords t) ↔ t.val = 0)

/-- No window is ever idle: the body reads its three inputs' buffers and stores the whole output block at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-! ## The memrefs the body is called with -/

/-- Each window's current staging memref at point `t`, and that it is a whole buffer. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S264x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .f32 := win0_3.stage (cfg0.slots t 3)
abbrev hs3 (t : Fin cfg0.N) : (ms3 t).IsWhole := hstage0_3 ((cfg0.slots t 3).cast nbuf0_3)
/-- The scratch that carries the projected features. -/
abbrev scM : Memref sig .tc .vmem S4096x256 .bf16 := Memref.whole cc0_scratch0
/-- One view each of the output's staging buffer and of the scratch, through which their contents are stated. -/
abbrev VO : View sig .tc .vmem S512x256 .f32 := (Memref.whole cc0_stg3_0 : Memref sig .tc .vmem S512x256 .f32).view
abbrev VS : View sig .tc .vmem S4096x256 .bf16 := scM.view

/-- The region's standing invariant spelled with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.KiRunFirst.lean ====
/-
  The body of `KernelIdeal`'s kernel at grid point 0, where its branch is taken: it loads the features and the top 256 rows
  of the side array, stores their product (rounded to bf16) over the whole scratch, then loads the point's rows of
  A, the scratch just written and the bias row, and stores the whole output block. Run on any whole memrefs, the
  three inputs at given contents, the output's buffer and the scratch at anything: the inputs come back as they were,
  and the output's buffer and the scratch each come back with a list of writes on top of what they held.
-/
import proofs.«142554_g27736898798368_cont_9to1_495_24_alg».proof.Proof.KiShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The writes the body leaves on the output's buffer (`.1`) and on the scratch (`.2.1`) at the first point, with
    the proof that it runs to its continuation holding the three inputs unchanged and those two buffers so written. -/
noncomputable def runFirst (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) :
    Σ' (L3 : List (View.Piece (Elt F) S512x256 .f32)), { LS : List (View.Piece (Elt F) S4096x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__graph_conv_kernel i arg1 harg1 arg2 harg2 arg3 harg3 arg4 harg4 arg5 harg5) K } := by
  refine ⟨?_, ?_, fun E K => ?run⟩
  case run =>
    simp only [cc0__graph_conv_kernel_eq_skeleton]; unfold cc0__graph_conv_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg1.eq_unread hf0; obtain rfl := harg2.eq_unread hf1; obtain rfl := harg3.eq_unread hf2
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.KernelIdeal.Fr

end
-- ==== Proof.KiRunLater.lean ====
/-
  The body of `KernelIdeal`'s kernel at a grid point after the first, where its branch is not taken: it loads the point's
  rows of A, the scratch as the first point left it and the bias row, and stores the whole output block; the scratch
  is only read. Run on any whole memrefs, the three inputs and the scratch at given contents, the output's buffer at
  anything: the inputs and the scratch come back as they were, the output's buffer with a list of writes on top.
-/
import proofs.«142554_g27736898798368_cont_9to1_495_24_alg».proof.Proof.KiRunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The writes the body leaves on the output's buffer at a later point, with the proof that it runs to its
    continuation holding the inputs and the scratch unchanged and the output's buffer so written. -/
noncomputable def runLater (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : ¬isFirst i)
    (x0 : Vec F S512x4096 .f32) (x1 : Vec F S4096x256 .f32) (x2 : Vec F S264x256 .f32) (xs : Vec F S4096x256 .bf16) :
    { L3 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs) -∗ K ⟨⟩))
          ⊢ wp frame (wpE (defs₀ (F := F)) Variants.none c none) E (cc0__graph_conv_kernel i arg1 harg1 arg2 harg2 arg3 harg3 arg4 harg4 arg5 harg5) K } := by
  refine ⟨?_, fun E K => ?run⟩
  case run =>
    simp only [cc0__graph_conv_kernel_eq_skeleton]; unfold cc0__graph_conv_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS

end Cert.KernelIdeal.Fr

end
-- ==== Proof.KiFrame.lean ====
/-
  The frame of `KernelIdeal`: every weakly fair execution of @main terminates without a fault and leaves the four
  argument arrays as launched — and, for the value claim, the result array is named.

  What the buffers hold point by point. The scratch is filled at point 0 and never stored again, so after every
  point it holds what point 0 left (`sc0`). The output's buffer after point `t` holds what that point's run
  stored (`outAt`): at point 0 the first case's writes, later the second case's, computed from the point's rows
  of A, the scratch `sc0` and the side array. The three inputs' buffers hold their blocks throughout. The region's
  invariant is the standing one before point 0 and, from then on, the scratch owned at `sc0`.
-/
import proofs.«142554_g27736898798368_cont_9to1_495_24_alg».proof.Proof.KiRunLater

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's writes cover the output's block. -/
theorem coverFirst_out (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) (y : S512x256.Idx) :
    ∃ pc ∈ (runFirst c i arg1 harg1 arg2 harg2 arg3 harg3 arg4 harg4 arg5 harg5 hc x0 x1 x2).1, y ∈ pc.1.set :=
  View.cover_of_tiledL (runFirst c i arg1 harg1 arg2 harg2 arg3 harg3 arg4 harg4 arg5 harg5 hc x0 x1 x2).1 S512x256.size (by sl_kernel_rfl) y

/-- What the first point leaves in the output's buffer. -/
def outFirst (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) : Vec F S512x256 .f32 :=
  VO.read (Elt F) (VO.writes (Elt F) VO.junk (runFirst c i arg1 harg1 arg2 harg2 arg3 harg3 arg4 harg4 arg5 harg5 hc x0 x1 x2).1)

/-- The first point's writes cover the scratch. -/
theorem coverFirst_sc (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) (y : S4096x256.Idx) :
    ∃ pc ∈ (runFirst c i arg1 harg1 arg2 harg2 arg3 harg3 arg4 harg4 arg5 harg5 hc x0 x1 x2).2.1, y ∈ pc.1.set :=
  View.cover_of_tiledL (runFirst c i arg1 harg1 arg2 harg2 arg3 harg3 arg4 harg4 arg5 harg5 hc x0 x1 x2).2.1 S4096x256.size (by sl_kernel_rfl) y

/-- What the first point leaves in the scratch. -/
def scFirst (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) : Vec F S4096x256 .bf16 :=
  VS.read (Elt F) (VS.writes (Elt F) VS.junk (runFirst c i arg1 harg1 arg2 harg2 arg3 harg3 arg4 harg4 arg5 harg5 hc x0 x1 x2).2.1)

/-- A later point's writes cover the output's block. -/
theorem coverLater_out (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : ¬isFirst i)
    (x0 : Vec F S512x4096 .f32) (x1 : Vec F S4096x256 .f32) (x2 : Vec F S264x256 .f32) (xs : Vec F S4096x256 .bf16) (y : S512x256.Idx) :
    ∃ pc ∈ (runLater c i arg1 harg1 arg2 harg2 arg3 harg3 arg4 harg4 arg5 harg5 hc x0 x1 x2 xs).1, y ∈ pc.1.set :=
  View.cover_of_tiledL (runLater c i arg1 harg1 arg2 harg2 arg3 harg3 arg4 harg4 arg5 harg5 hc x0 x1 x2 xs).1 S512x256.size (by sl_kernel_rfl) y

/-- What a later point leaves in the output's buffer. -/
def outLater (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : ¬isFirst i)
    (x0 : Vec F S512x4096 .f32) (x1 : Vec F S4096x256 .f32) (x2 : Vec F S264x256 .f32) (xs : Vec F S4096x256 .bf16) : Vec F S512x256 .f32 :=
  VO.read (Elt F) (VO.writes (Elt F) VO.junk (runLater c i arg1 harg1 arg2 harg2 arg3 harg3 arg4 harg4 arg5 harg5 hc x0 x1 x2 xs).1)

/-! ## The buffers point by point -/

/-- Point 0 is a first point. -/
theorem first_t0 : isFirst (grid0.coords t0_0) := (isFirst_iff t0_0).mpr rfl

/-- The scratch after point 0, hence after every point: the first case's writes, from the whole features array and
    the whole side array. -/
def sc0 (c : Dev nD) : Vec F S4096x256 .bf16 :=
  scFirst c (grid0.coords t0_0) (ms0 t0_0) (hs0 t0_0) (ms1 t0_0) (hs1 t0_0) (ms2 t0_0) (hs2 t0_0) (ms3 t0_0) (hs3 t0_0) scM (Memref.isWhole_whole _) first_t0
    (iblk m c 0 t0_0) (iblk m c 1 t0_0) (iblk m c 2 t0_0)

/-- The output's buffer after point `t`. -/
def outAt (c : Dev nD) (t : Fin cfg0.N) : Vec F S512x256 .f32 :=
  if h : t.val = 0 then
    outFirst c (grid0.coords t) (ms0 t) (hs0 t) (ms1 t) (hs1 t) (ms2 t) (hs2 t) (ms3 t) (hs3 t) scM (Memref.isWhole_whole _) ((isFirst_iff t).mpr h)
      (iblk m c 0 t) (iblk m c 1 t) (iblk m c 2 t)
  else
    outLater c (grid0.coords t) (ms0 t) (hs0 t) (ms1 t) (hs1 t) (ms2 t) (hs2 t) (ms3 t) (hs3 t) scM (Memref.isWhole_whole _) (fun hf => h ((isFirst_iff t).mp hf))
      (iblk m c 0 t) (iblk m c 1 t) (iblk m c 2 t) (sc0 m c)

theorem outAt_first (c : Dev nD) (t : Fin cfg0.N) (h : t.val = 0) :
    outAt m c t = outFirst c (grid0.coords t) (ms0 t) (hs0 t) (ms1 t) (hs1 t) (ms2 t) (hs2 t) (ms3 t) (hs3 t) scM (Memref.isWhole_whole _) ((isFirst_iff t).mpr h)
      (iblk m c 0 t) (iblk m c 1 t) (iblk m c 2 t) := dif_pos h

theorem outAt_later (c : Dev nD) (t : Fin cfg0.N) (h : ¬t.val = 0) :
    outAt m c t = outLater c (grid0.coords t) (ms0 t) (hs0 t) (ms1 t) (hs1 t) (ms2 t) (hs2 t) (ms3 t) (hs3 t) scM (Memref.isWhole_whole _) (fun hf => h ((isFirst_iff t).mp hf))
      (iblk m c 0 t) (iblk m c 1 t) (iblk m c 2 t) (sc0 m c) := dif_neg h

/-- The region's invariant before position `n`: the standing one before the first point, then the scratch owned at
    `sc0` beside the generator register at some state. -/
def PhiS (c : Dev nD) : ℕ → sProp 𝕄
  | 0 => Pipeline.ΦA spec0 c
  | _ + 1 => iprop(iprop(owns (c : Thread nD τ) scM fullShare (sc0 m c)) ∗ (∃ r, prngReg c r))

theorem PhiS_zero (c : Dev nD) : PhiS m c 0 = Pipeline.ΦA spec0 c := rfl
theorem PhiS_succ (c : Dev nD) (n : ℕ) :
    PhiS m c (n + 1) = iprop(iprop(owns (c : Thread nD τ) scM fullShare (sc0 m c)) ∗ (∃ r, prngReg c r)) := rfl
theorem PhiS_pos (c : Dev nD) (n : ℕ) (hz : n ≠ 0) :
    PhiS m c n = iprop(iprop(owns (c : Thread nD τ) scM fullShare (sc0 m c)) ∗ (∃ r, prngReg c r)) := by
  cases n with
  | zero => exact absurd rfl hz
  | succ n => rfl

/-! ## The proof data -/

/-- The pipeline's proof data on core `c`: the arrays as the region finds them; after the body each input's buffer
    at its block and the output's at `outAt`; the invariant `PhiS`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; at point 0 the invariant hands over the scratch
    at anything and the first case's run returns it written, which reads as `sc0` because the writes cover it; at
    a later point the invariant hands over the scratch at `sc0` and the second case's run returns it untouched.
    Either way the output's buffer comes back holding the case's writes, which cover its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from by dsimp only [dats]; simp only [Fin.coe_castSucc]]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases hz : t.val = 0
  · obtain rfl : t = t0_0 := Fin.ext hz
    rw [outAt_first m c t0_0 hz, show PhiS m c t0_0.val = Pipeline.ΦA spec0 c from rfl, PhiA_eq]
    unfold outFirst sc0 scFirst; (try dsimp only)
    iintro ⟨⟨⟨%ds, HS⟩, Hg⟩, Ho, ⟨%d0, H0⟩, ⟨%d1, H1⟩, ⟨%d2, H2⟩, ⟨%d3, H3⟩⟩
    iapply ((runFirst c (grid0.coords t0_0) _ _ _ _ _ _ _ _ _ _ first_t0 (iblk m c 0 t0_0) (iblk m c 1 t0_0) (iblk m c 2 t0_0)).2.2 Set.univ _)
    isplitl [H0]; · iexact H0
    isplitl [H1]; · iexact H1
    isplitl [H2]; · iexact H2
    isplitl [H3]; · iexists _; iexact H3
    isplitl [HS]; · iexists _; iexact HS
    iintro ⟨H0, H1, H2, ⟨%e3, H3⟩, ⟨%es, HS⟩⟩
    isplitl [HS Hg]
    · isplitl [HS]
      · unfold owns; iexists _; isplitr
        swap; · iexact HS
        ipureintro; exact View.read_writes_of_cover _ _ _ _ _ (coverFirst_sc c _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst_out c _ _ _ _ _ _ _ _ _ _ _ _ _ _ _)
  · rw [outAt_later m c t hz, PhiS_pos m c _ hz]
    unfold outLater; (try dsimp only)
    iintro ⟨⟨HS, Hg⟩, Ho, ⟨%d0, H0⟩, ⟨%d1, H1⟩, ⟨%d2, H2⟩, ⟨%d3, H3⟩⟩
    iapply ((runLater c (grid0.coords t) _ _ _ _ _ _ _ _ _ _ (fun hf => hz ((isFirst_iff t).mp hf)) (iblk m c 0 t) (iblk m c 1 t) (iblk m c 2 t) (sc0 m c)).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]; · iexact HS
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater_out c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The launch hands the region the standing invariant, which is `PhiS` before the first point. -/
theorem hin (c : Dev nD) : Pipeline.ΦA spec0 c ⊢ (dats m 0 c).Φ 0 := by
  rw [show (dats m 0 c).Φ 0 = PhiS m c 0 from rfl, PhiS_zero]
  try exact Idealize.SL.BI.Entails.refl _

/-- After the last point the scratch's contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), PhiA_eq]
  iintro ⟨HS, Hg⟩
  isplitl [HS]
  · iexists _; iexact HS
  iexact Hg

/-! ## The run and the frame -/

set_option backward.isDefEq.respectTransparency.types false in
/-- Every weakly fair execution of @main terminates; at the end every window's array holds what the library reads
    off the proof data (an input's its entry contents, the output's the points' blocks written back), and every other
    unscoped buffer what the host line left in it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Payload.lean ====
/-
  The idealized kernel's two stored values, and the side array the host builds for it, read at one index at the
  ideal values (a float is an extended real; a change of format is the identity; a matrix product into the zero
  accumulator is the plain sum of products over the contracted axis).

  • The first stored value at row `k`, column `j` is the sum over `l` below 256 of the node features at `(k, l)`
    times the loaded weight block at `(l, j)`: the two roundings and the two casts to the same shape are identities.
  • The second stored value at `(r, j)` is the sum over `k` below 4096 of the adjacency block at `(r, k)` times the
    scratch at `(k, j)`, plus the one bias row at `j` (a row broadcast over the 512 rows, then an elementwise sum).
  • The side array is three pieces joined along the row axis: rows 0 to 255 the first piece, row 256 the second
    piece's one row, the last seven rows the third piece. Stated over arbitrary pieces.
  • A matrix transposed reads the operand with the coordinates swapped, and a vector cast to one row reads the vector.
-/
import proofs.«142554_g27736898798368_cont_9to1_495_24_alg».proof.Proof.Gen.KernelIdeal.Skeleton
import proofs.«142554_g27736898798368_cont_9to1_495_24_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx

/-- The first stored value at `(k, j)`: the sum over the 256 feature columns of features times weights. -/
theorem pay1_apply (v12 : Vec Ideal S4096x256 .f32) (v14 : Vec Ideal S256x256 .f32) (k : Fin 4096) (j : Fin 256) :
    (k0_pay1 (F := Ideal) v12 v14) (ix2 k j) = ∑ l : Fin 256, v12 (ix2 k l) * v14 (ix2 l j) := by
  unfold k0_pay1
  -- the outer cast to the same shape and the rounding of the product are identities
  rw [shapeCast_self]
  refine (truncf_apply (φ := .f32) (ψ := .bf16) _ bitsLt_bf16_f32 (ix2 k j)).trans ?_
  -- the product into the zero accumulator is the sum over the contracted axis
  refine (PlainDot.matmul_zero_apply 4096 256 256 (φ₁ := .bf16) (φ₂ := .bf16) none _ _ (ix2 k j)).trans ?_
  refine Finset.sum_congr rfl fun l _ => ?_
  -- each factor is an operand read through a rounding (and, on the right, a cast to the same shape)
  rw [shapeCast_self]
  rfl

/-- The second stored value at `(r, j)`: the sum over the 4096 nodes of adjacency times scratch, plus the bias row. -/
theorem pay2_apply (v3 : Vec Ideal S512x4096 .f32) (v5 : Vec Ideal S4096x256 .bf16) (v7 : Vec Ideal S1x256 .f32)
    (r : Fin 512) (j : Fin 256) :
    (k0_pay2 (F := Ideal) v3 v5 v7) (ix2 r j)
      = (∑ k : Fin 4096, v3 (ix2 r k) * v5 (ix2 k j)) + v7 (ix2 (0 : Fin 1) j) := by
  unfold k0_pay2
  refine (addf_apply _ _ _).trans ?_
  refine congrArg₂ (· + ·) ?_ ?_
  · -- the product into the zero accumulator is the sum over the contracted axis; the left factor's rounding is the identity
    refine (PlainDot.matmul_zero_apply 512 4096 256 (φ₁ := .bf16) (φ₂ := .bf16) none _ _ (ix2 r j)).trans ?_
    rfl
  · -- the one row broadcast over every row, the row itself a cast to the same shape
    refine (broadcastTo_1b_ab_apply _ _ r j).trans ?_
    rw [shapeCast_self]

/-- Three pieces of 256, 1 and 7 rows joined along the row axis read, in the first 256 rows, the first piece
    (the piece before it spans no rows, so the row inside the piece is the row itself); for any proof of the shape relation. -/
theorem side_top_of (h : Shape.Concatenates [S256x256, S1x256, S7x256] S264x256 0)
    (T : Vec Ideal S256x256 .f32) (r : Vec Ideal S1x256 .f32) (z : Vec Ideal S7x256 .f32) (l j : Fin 256) :
    concatenate S264x256 0 [⟨S256x256, T⟩, ⟨S1x256, r⟩, ⟨S7x256, z⟩] h
        (ix2 (⟨l.val, by omega⟩ : Fin 264) j) = T (ix2 l j) := by
  refine concatenate_apply_piece (0 : Fin S264x256.rank) _ _ _ 0 (by show (0 : Nat) < 3; decide) S256x256 T rfl rfl 0 rfl (ix2 l j) ?_ ?_
  · intro b hb
    match b with
    | ⟨0, _⟩ => exact absurd rfl hb
    | ⟨1, _⟩ => rfl
  · show 0 + l.val = l.val
    omega

/-- The same joined array reads, in row 256, the second piece's one row (the first piece spans the 256 rows before
    it, so the row inside the piece is row 0); for any proof of the shape relation. -/
theorem side_bias_of (h : Shape.Concatenates [S256x256, S1x256, S7x256] S264x256 0)
    (T : Vec Ideal S256x256 .f32) (r : Vec Ideal S1x256 .f32) (z : Vec Ideal S7x256 .f32) (j : Fin 256) :
    concatenate S264x256 0 [⟨S256x256, T⟩, ⟨S1x256, r⟩, ⟨S7x256, z⟩] h
        (ix2 (⟨256, by decide⟩ : Fin 264) j) = r (ix2 (0 : Fin 1) j) := by
  refine concatenate_apply_piece (0 : Fin S264x256.rank) _ _ _ 1 (by show (1 : Nat) < 3; decide) S1x256 r rfl rfl 256 rfl (ix2 (0 : Fin 1) j) ?_ ?_
  · intro b hb
    match b with
    | ⟨0, _⟩ => exact absurd rfl hb
    | ⟨1, _⟩ => rfl
  · rfl

/-- The side array's first 256 rows are the first piece. -/
theorem side_top (T : Vec Ideal S256x256 .f32) (r : Vec Ideal S1x256 .f32) (z : Vec Ideal S7x256 .f32) (l j : Fin 256) :
    concatenate S264x256 0 [⟨S256x256, T⟩, ⟨S1x256, r⟩, ⟨S7x256, z⟩] Facts₀.concatenates_S256x256_S1x256_S7x256_S264x256_d0
        (ix2 (⟨l.val, by omega⟩ : Fin 264) j) = T (ix2 l j) :=
  side_top_of _ T r z l j

/-- The side array's row 256 is the second piece's one row. -/
theorem side_bias (T : Vec Ideal S256x256 .f32) (r : Vec Ideal S1x256 .f32) (z : Vec Ideal S7x256 .f32) (j : Fin 256) :
    concatenate S264x256 0 [⟨S256x256, T⟩, ⟨S1x256, r⟩, ⟨S7x256, z⟩] Facts₀.concatenates_S256x256_S1x256_S7x256_S264x256_d0
        (ix2 (⟨256, by decide⟩ : Fin 264) j) = r (ix2 (0 : Fin 1) j) :=
  side_bias_of _ T r z j

/-- A 256 by 256 matrix transposed reads, at `(l, j)`, the matrix at `(j, l)`; for any proof of the shape relation. -/
theorem transpose_W_of (h : S256x256.Transposes [1, 0] S256x256) (W : Vec Ideal S256x256 .f32) (l j : Fin 256) :
    transpose S256x256 [1, 0] W h (ix2 l j) = W (ix2 j l) :=
  transpose_ix2_apply W h l j

/-- The weights transposed read, at `(l, j)`, the weights at `(j, l)`. -/
theorem transpose_W (W : Vec Ideal S256x256 .f32) (l j : Fin 256) :
    transpose S256x256 [1, 0] W Facts₀.transposes_S256x256_S256x256_1_0 (ix2 l j) = W (ix2 j l) :=
  transpose_W_of _ W l j

/-- A vector of 256 cast to one row reads, at `(0, j)`, the vector at `j`; for any proof of the shape relation. -/
theorem row_of_b_of (h : S256.ShapeCasts S1x256) (b : Vec Ideal S256 .f32) (j : Fin 256) :
    shapeCast S1x256 b h (ix2 (0 : Fin 1) j) = b (ix1 j) :=
  shapeCast_a_1a_apply b h (0 : Fin 1) j

/-- The bias as one row reads, at `(0, j)`, the bias at `j`. -/
theorem row_of_b (b : Vec Ideal S256 .f32) (j : Fin 256) :
    shapeCast S1x256 b Facts₀.shapeCasts_S256_S1x256 (ix2 (0 : Fin 1) j) = b (ix1 j) :=
  row_of_b_of _ b j

end Cert.KernelIdeal.KValue

end
-- ==== Proof.Pieces.lean ====
/-
  What the idealized kernel's body leaves in its scratch and in its output buffer, read at an index as sums over
  the blocks it was handed.

  Each of the three buffers the body stores into receives ONE store through the whole-shape rectangle at zero
  offsets, so the buffer reads back as that store's payload, and every whole-buffer load reads the buffer's contents:

  • the scratch after the first point is the first stored value of the features block and of the side buffer's top
    256 rows;
  • the output's buffer after the first point is the second stored value of the point's adjacency rows, of the
    scratch read back after its own store (the first stored value again), and of the side buffer's row 256;
  • the output's buffer after a later point is the second stored value of the point's adjacency rows, of the
    scratch as that point found it, and of the side buffer's row 256.

  At the ideal values a load through a sub-rectangle reads the buffer at the rectangle's embedded index (offset plus
  coordinate on each axis), and the two stored values are the sums the sibling module on the payloads gives. So the
  scratch at (k, j) is the sum over l below 256 of features (k, l) times side (l, j), and the output's buffer after
  point t at (r, j) is the sum over k below 4096 of adjacency (r, k) times scratch (k, j), plus side (256, j).
-/
import proofs.«142554_g27736898798368_cont_9to1_495_24_alg».proof.Proof.KiFrame
import proofs.«142554_g27736898798368_cont_9to1_495_24_alg».proof.Proof.Payload
import Idealize.ShloMosaic.Lib.Pipeline.FrameBody
import Idealize.ShloMosaic.Lib.Pipeline.Value
import Idealize.ShloMosaic.Lib.ValueIdx
import Idealize.ShloMosaic.PureOps.Ideal

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.ValueIdx Idealize.SL.Sem
open Idealize.ShloMosaic.Tactic

/-! ## What each case's one covering store leaves, for any float values -/

section
variable {F : FTy → Type} [FloatOps F]

/-- The zero offsets of a rank-2 rectangle, spelt as the constant function. -/
theorem offs00_zero : (![0, 0] : Fin 2 → Nat) = fun _ => 0 := funext fun a => by fin_cases a <;> rfl

/-- The top 256 rows of the side buffer: the rectangle the first point's weight load reads. -/
abbrev topR : Rect S264x256 := Rect.unit (s := S264x256) ![0, 0] S256x256.size inb_S264x256_S256x256_0_0
/-- Row 256 of the side buffer: the rectangle every point's bias load reads. -/
abbrev biasR : Rect S264x256 := Rect.unit (s := S264x256) ![256, 0] S1x256.size inb_S264x256_S1x256_256_0

/-- The first point's one store on the scratch covers it, so the scratch reads back as that store's payload: the
    first stored value of the whole features block and the side buffer's top 256 rows. -/
theorem scFirst_eq (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) :
    scFirst c i arg1 harg1 arg2 harg2 arg3 harg3 arg4 harg4 arg5 harg5 hc x0 x1 x2 = k0_pay1 x1 (View.ld x2 topR) := by
  unfold scFirst
  rw [View.read_writes_eq_canon _ _ _ (coverFirst_sc c i arg1 harg1 arg2 harg2 arg3 harg3 arg4 harg4 arg5 harg5 hc x0 x1 x2)]
  unfold runFirst
  dsimp only
  sl_unfold_words
  rw [View.canon_unit_zero offs00_zero]
  simp only [View.readAt_eq_ld, Memref.IsWhole.read_unread, View.ld_unit_zero (S := S4096x256) offs00_zero]

/-- The first point's one store on the output's buffer covers it. Its payload is the second stored value of the
    point's adjacency rows, of the scratch read back after its own store (so the first stored value again), and of
    the side buffer's row 256. -/
theorem outFirst_eq (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : isFirst i)
    (x0 : Vec F S512x4096 .f32) (x1 : Vec F S4096x256 .f32) (x2 : Vec F S264x256 .f32) :
    outFirst c i arg1 harg1 arg2 harg2 arg3 harg3 arg4 harg4 arg5 harg5 hc x0 x1 x2
      = k0_pay2 x0 (k0_pay1 x1 (View.ld x2 topR)) (View.ld x2 biasR) := by
  unfold outFirst
  rw [View.read_writes_eq_canon _ _ _ (coverFirst_out c i arg1 harg1 arg2 harg2 arg3 harg3 arg4 harg4 arg5 harg5 hc x0 x1 x2)]
  unfold runFirst
  dsimp only
  sl_unfold_words
  rw [View.canon_unit_zero offs00_zero]
  simp only [View.readAt_eq_ld, Memref.IsWhole.read_unread, View.ld_unit_zero (S := S4096x256) offs00_zero,
    View.ld_unit_zero (S := S512x4096) offs00_zero, View.readCov_unit_zero (S := S4096x256) _ offs00_zero]

/-- A later point's one store on the output's buffer covers it. Its payload is the second stored value of the
    point's adjacency rows, of the scratch as the point found it, and of the side buffer's row 256. -/
theorem outLater_eq (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S264x256 .f32) (harg3 : arg3.IsWhole) (arg4 : Memref sig .tc .vmem S512x256 .f32) (harg4 : arg4.IsWhole) (arg5 : Memref sig .tc .vmem S4096x256 .bf16) (harg5 : arg5.IsWhole) (hc : ¬isFirst i)
    (x0 : Vec F S512x4096 .f32) (x1 : Vec F S4096x256 .f32) (x2 : Vec F S264x256 .f32) (xs : Vec F S4096x256 .bf16) :
    outLater c i arg1 harg1 arg2 harg2 arg3 harg3 arg4 harg4 arg5 harg5 hc x0 x1 x2 xs = k0_pay2 x0 xs (View.ld x2 biasR) := by
  unfold outLater
  rw [View.read_writes_eq_canon _ _ _ (coverLater_out c i arg1 harg1 arg2 harg2 arg3 harg3 arg4 harg4 arg5 harg5 hc x0 x1 x2 xs)]
  unfold runLater
  dsimp only
  sl_unfold_words
  rw [View.canon_unit_zero offs00_zero]
  simp only [View.readAt_eq_ld, Memref.IsWhole.read_unread, View.ld_unit_zero (S := S4096x256) offs00_zero,
    View.ld_unit_zero (S := S512x4096) offs00_zero]

end

/-! ## At the ideal values, at an index -/

variable (m : (ℓ : Loc nD τ sig) → Buf (Elt Ideal) ℓ)

/-- The blocks the body is handed, named at their literal types so that their entries multiply and add:
    the point's 512 rows of the adjacency array, -/
abbrev blkA (c : Dev nD) (t : Fin cfg0.N) : Vec Ideal S512x4096 .f32 := iblk m c 0 t
/-- the whole features array, -/
abbrev blkX (c : Dev nD) (t : Fin cfg0.N) : Vec Ideal S4096x256 .f32 := iblk m c 1 t
/-- and the whole 264 by 256 side array. -/
abbrev blkS (c : Dev nD) (t : Fin cfg0.N) : Vec Ideal S264x256 .f32 := iblk m c 2 t

/-- A load of the side buffer's top 256 rows reads, at (l, j), the buffer at (l, j): offset 0 and unit stride on
    both axes. -/
theorem ld_top (x2 : Vec Ideal S264x256 .f32) (l j : Fin 256) :
    View.ld x2 topR (ix2 l j) = x2 (ix2 (⟨l.val, by omega⟩ : Fin 264) j) := by
  refine congrArg x2 (funext fun a => ?_)
  match a with
  | ⟨0, _⟩ => exact Fin.ext (by show 0 + 1 * l.val = l.val; omega)
  | ⟨1, _⟩ => exact Fin.ext (by show 0 + 1 * j.val = j.val; omega)

/-- A load of the side buffer's row 256 reads, at (0, j), the buffer at (256, j): offset 256 on the row axis. -/
theorem ld_bias (x2 : Vec Ideal S264x256 .f32) (j : Fin 256) :
    View.ld x2 biasR (ix2 (0 : Fin 1) j) = x2 (ix2 (⟨256, by decide⟩ : Fin 264) j) := by
  refine congrArg x2 (funext fun a => ?_)
  match a with
  | ⟨0, _⟩ => exact Fin.ext (by show 256 + 1 * 0 = 256; omega)
  | ⟨1, _⟩ => exact Fin.ext (by show 0 + 1 * j.val = j.val; omega)

/-- The scratch after point 0 is the first stored value of the features array and the side array's top 256 rows. -/
theorem sc0_eq (c : Dev nD) :
    sc0 m c = k0_pay1 (F := Ideal) (blkX m c t0_0) (View.ld (blkS m c t0_0) topR) := by
  unfold sc0
  exact scFirst_eq (F := Ideal) c (grid0.coords t0_0) (ms0 t0_0) (hs0 t0_0) (ms1 t0_0) (hs1 t0_0) (ms2 t0_0) (hs2 t0_0)
    (ms3 t0_0) (hs3 t0_0) scM (Memref.isWhole_whole _) first_t0 (iblk m c 0 t0_0) (iblk m c 1 t0_0) (iblk m c 2 t0_0)

/-- The scratch at (k, j): the sum over the 256 feature columns l of the features at (k, l) times the side array
    at (l, j), a row of its top 256. -/
theorem sc0_apply (c : Dev nD) (k : Fin 4096) (j : Fin 256) :
    (sc0 m c) (ix2 k j)
      = ∑ l : Fin 256, blkX m c t0_0 (ix2 k l) * blkS m c t0_0 (ix2 (⟨l.val, by omega⟩ : Fin 264) j) := by
  refine (congrFun (sc0_eq m c) (ix2 k j)).trans ?_
  refine (pay1_apply (blkX m c t0_0) (View.ld (blkS m c t0_0) topR) k j).trans ?_
  refine Finset.sum_congr rfl fun l _ => ?_
  exact congrArg (blkX m c t0_0 (ix2 k l) * ·) (ld_top (blkS m c t0_0) l j)

/-- The output's buffer after point t, at (r, j): the sum over the 4096 nodes k of the point's adjacency rows at
    (r, k) times the scratch at (k, j), plus the side array's row 256 at j. At point 0 the scratch the
    body reads back is the one it has just stored, which is the scratch after point 0. -/
theorem outAt_apply (c : Dev nD) (t : Fin cfg0.N) (r : Fin 512) (j : Fin 256) :
    (outAt m c t) (ix2 r j)
      = (∑ k : Fin 4096, blkA m c t (ix2 r k) * (sc0 m c) (ix2 k j))
        + blkS m c t (ix2 (⟨256, by decide⟩ : Fin 264) j) := by
  by_cases h : t.val = 0
  · obtain rfl : t = t0_0 := Fin.ext h
    refine (congrFun (outAt_first m c t0_0 h) (ix2 r j)).trans ?_
    refine (congrFun (outFirst_eq (F := Ideal) c (grid0.coords t0_0) (ms0 t0_0) (hs0 t0_0) (ms1 t0_0) (hs1 t0_0) (ms2 t0_0) (hs2 t0_0)
      (ms3 t0_0) (hs3 t0_0) scM (Memref.isWhole_whole _) ((isFirst_iff t0_0).mpr h)
      (iblk m c 0 t0_0) (iblk m c 1 t0_0) (iblk m c 2 t0_0)) (ix2 r j)).trans ?_
    refine (congrArg (fun v : Vec Ideal S4096x256 .bf16 =>
      k0_pay2 (F := Ideal) (blkA m c t0_0) v (View.ld (blkS m c t0_0) biasR) (ix2 r j)) (sc0_eq m c).symm).trans ?_
    refine (pay2_apply (blkA m c t0_0) (sc0 m c) (View.ld (blkS m c t0_0) biasR) r j).trans ?_
    exact congrArg ((∑ k : Fin 4096, blkA m c t0_0 (ix2 r k) * (sc0 m c) (ix2 k j)) + ·) (ld_bias (blkS m c t0_0) j)
  · refine (congrFun (outAt_later m c t h) (ix2 r j)).trans ?_
    refine (congrFun (outLater_eq (F := Ideal) c (grid0.coords t) (ms0 t) (hs0 t) (ms1 t) (hs1 t) (ms2 t) (hs2 t)
      (ms3 t) (hs3 t) scM (Memref.isWhole_whole _) (fun hf => h ((isFirst_iff t).mp hf))
      (iblk m c 0 t) (iblk m c 1 t) (iblk m c 2 t) (sc0 m c)) (ix2 r j)).trans ?_
    refine (pay2_apply (blkA m c t) (sc0 m c) (View.ld (blkS m c t) biasR) r j).trans ?_
    exact congrArg ((∑ k : Fin 4096, blkA m c t (ix2 r k) * (sc0 m c) (ix2 k j)) + ·) (ld_bias (blkS m c t) j)

end Cert.KernelIdeal.KValue

end
-- ==== Proof.Blocks.lean ====
/-
  What each input window hands the body, entry by entry, in terms of the four argument arrays as launched,
  at the ideal values.

  • The adjacency window's block at grid point `t` is rows `512 t` to `512 t + 511` of the adjacency array: its
    entry `(r, k)` is the array's entry `(512 t + r, k)`.
  • The features window's block is the whole features array at every point.
  • The side window's block is the whole side array at every point. The side array is the weights transposed
    (256 rows), then the bias as one row, then seven zero rows, joined along the row axis. So its entry `(l, j)`
    for `l` below 256 is the weight at `(j, l)`, and its entry `(256, j)` is the bias at `j`.

  A block's element sits in its array at block index times block size plus the coordinate inside the block, on
  each axis; the block indices are decided once over the eight grid points.
-/
import proofs.«142554_g27736898798368_cont_9to1_495_24_alg».proof.Proof.KiShared
import proofs.«142554_g27736898798368_cont_9to1_495_24_alg».proof.Proof.Payload
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ)

/-! ## The block indices over the grid -/

/-- The adjacency window's block index at point `t` is `(t, 0)`. -/
theorem idxA_0 : ∀ t : Fin cfg0.N, win0_0.index t (0 : Fin 2) = t.val :=
  (by decide +kernel : ∀ t : Fin grid0.N, _)
theorem idxA_1 : ∀ t : Fin cfg0.N, win0_0.index t (1 : Fin 2) = 0 :=
  (by decide +kernel : ∀ t : Fin grid0.N, _)
/-- The features window's block index is `(0, 0)` at every point. -/
theorem idxX_0 : ∀ t : Fin cfg0.N, win0_1.index t (0 : Fin 2) = 0 :=
  (by decide +kernel : ∀ t : Fin grid0.N, _)
theorem idxX_1 : ∀ t : Fin cfg0.N, win0_1.index t (1 : Fin 2) = 0 :=
  (by decide +kernel : ∀ t : Fin grid0.N, _)
/-- The side window's block index is `(0, 0)` at every point. -/
theorem idxS_0 : ∀ t : Fin cfg0.N, win0_2.index t (0 : Fin 2) = 0 :=
  (by decide +kernel : ∀ t : Fin grid0.N, _)
theorem idxS_1 : ∀ t : Fin cfg0.N, win0_2.index t (1 : Fin 2) = 0 :=
  (by decide +kernel : ∀ t : Fin grid0.N, _)

/-! ## The adjacency and the features blocks -/

/-- Entry `(r, k)` of the adjacency block at point `t` is entry `(512 t + r, k)` of the adjacency array as launched:
    the row is block index `t` times 512 plus `r`, the column is block index 0 times 4096 plus `k`. -/
theorem blkA_apply (c : Dev nD) (t : Fin cfg0.N) (r : Fin 512) (k : Fin 4096) (i : Fin 4096) (hi : i.val = 512 * t.val + r.val) :
    (iblk m c 0 t : Vec Ideal S512x4096 .f32) (ix2 r k) = (m ((c : Thread nD τ).loc main_arg0) : Vec Ideal S4096x4096 .f32) (ix2 i k) := by
  unfold iblk
  show V m c main_arg0 (((cfg0.win 0).blk t).view.emb (ix2 r k)) = _
  rw [V_main_arg0]
  refine congrArg _ ?_
  funext a
  apply Fin.ext
  match a with
  | ⟨0, _⟩ => show win0_0.index t (0 : Fin 2) * 512 + 1 * r.val = i.val; rw [idxA_0]; omega
  | ⟨1, _⟩ => show win0_0.index t (1 : Fin 2) * 4096 + 1 * k.val = k.val; rw [idxA_1]; omega

/-- Entry `(k, l)` of the features block is entry `(k, l)` of the features array as launched, at every point:
    both block indices are 0 and the block is the whole array. -/
theorem blkX_apply (c : Dev nD) (t : Fin cfg0.N) (k : Fin 4096) (l : Fin 256) :
    (iblk m c 1 t : Vec Ideal S4096x256 .f32) (ix2 k l) = (m ((c : Thread nD τ).loc main_arg1) : Vec Ideal S4096x256 .f32) (ix2 k l) := by
  unfold iblk
  show V m c main_arg1 (((cfg0.win 1).blk t).view.emb (ix2 k l)) = _
  rw [V_main_arg1]
  refine congrArg _ ?_
  funext a
  apply Fin.ext
  match a with
  | ⟨0, _⟩ => show win0_1.index t (0 : Fin 2) * 4096 + 1 * k.val = k.val; rw [idxX_0]; omega
  | ⟨1, _⟩ => show win0_1.index t (1 : Fin 2) * 256 + 1 * l.val = l.val; rw [idxX_1]; omega

/-! ## The side block -/

/-- Entry `(r, j)` of the side block is entry `(r, j)` of the side array as the region finds it, at every point:
    both block indices are 0 and the block is the whole array. -/
theorem blkS_read (c : Dev nD) (t : Fin cfg0.N) (r : Fin 264) (j : Fin 256) :
    (iblk m c 2 t : Vec Ideal S264x256 .f32) (ix2 r j) = (V m c main_v3 : Vec Ideal S264x256 .f32) (ix2 r j) := by
  unfold iblk
  show V m c main_v3 (((cfg0.win 2).blk t).view.emb (ix2 r j)) = _
  refine congrArg _ ?_
  funext a
  apply Fin.ext
  match a with
  | ⟨0, _⟩ => show win0_2.index t (0 : Fin 2) * 264 + 1 * r.val = r.val; rw [idxS_0]; omega
  | ⟨1, _⟩ => show win0_2.index t (1 : Fin 2) * 256 + 1 * j.val = j.val; rw [idxS_1]; omega

/-- The side array when the region is entered: the weights as launched transposed, the bias as launched cast to one
    row, and seven rows of the zero constant, joined along the row axis. Each of the five host results is read at
    its own buffer, and the two argument arrays they start from are as launched. -/
theorem side_eq (c : Dev nD) :
    (V m c main_v3 : Vec Ideal S264x256 .f32)
      = concatenate S264x256 0
          [⟨S256x256, transpose S256x256 [1, 0] (m ((c : Thread nD τ).loc main_arg2) : Vec Ideal S256x256 .f32) Facts₀.transposes_S256x256_S256x256_1_0⟩,
           ⟨S1x256, shapeCast S1x256 (m ((c : Thread nD τ).loc main_arg3) : Vec Ideal S256 .f32) Facts₀.shapeCasts_S256_S1x256⟩,
           ⟨S7x256, broadcastInDim S7x256 ![] Facts₀.bcast_S_S7x256 (constant (F := Ideal) S_ .f32 0x00000000#32)⟩]
          Facts₀.concatenates_S256x256_S1x256_S7x256_S264x256_d0 := by
  dsimp only [V, hostOps0]
  after_results
  -- the join's three operands are the contents at the three literal buffers
  dsimp only [Matrix.cons_val]
  repeat (first
    | rw [StableHlo.nullary_result] | rw [StableHlo.unary_result] | rw [StableHlo.reshape_result]
    | (rw [StableHlo.nullary_result_ne]; rotate_left; decide)
    | (rw [StableHlo.unary_result_ne]; rotate_left; decide)
    | (rw [StableHlo.reshape_result_ne]; rotate_left; decide))
  rfl

/-- Entry `(l, j)` of the side block, for `l` below 256, is the weight at `(j, l)`: the first 256 rows of the join are
    its first piece, the weights transposed. -/
theorem blkS_top (c : Dev nD) (t : Fin cfg0.N) (l j : Fin 256) (r : Fin 264) (hr : r.val = l.val) :
    (iblk m c 2 t : Vec Ideal S264x256 .f32) (ix2 r j) = (m ((c : Thread nD τ).loc main_arg2) : Vec Ideal S256x256 .f32) (ix2 j l) := by
  have hr' : r = (⟨l.val, Nat.lt_of_lt_of_le l.isLt (by decide)⟩ : Fin 264) := Fin.ext hr
  subst hr'
  refine (blkS_read m c t _ j).trans ?_
  refine (congrFun (side_eq m c) _).trans ?_
  refine (side_top_of _ _ _ _ l j).trans ?_
  exact transpose_W_of _ _ l j

/-- Entry `(256, j)` of the side block is the bias at `j`: row 256 of the join is its second piece's one row, the
    bias cast to a row. -/
theorem blkS_bias (c : Dev nD) (t : Fin cfg0.N) (j : Fin 256) (r : Fin 264) (hr : r.val = 256) :
    (iblk m c 2 t : Vec Ideal S264x256 .f32) (ix2 r j) = (m ((c : Thread nD τ).loc main_arg3) : Vec Ideal S256 .f32) (ix1 j) := by
  have hr' : r = (⟨256, by decide⟩ : Fin 264) := Fin.ext hr
  subst hr'
  refine (blkS_read m c t _ j).trans ?_
  refine (congrFun (side_eq m c) _).trans ?_
  refine (side_bias_of _ _ _ _ j).trans ?_
  exact row_of_b_of _ _ j

end Cert.KernelIdeal.KValue

end
-- ==== Proof.Spec.lean ====
/-
  The value both programs compute, stated once over the argument arrays at the extended reals.

  With A the 4096 × 4096 adjacency matrix, x the 4096 × 256 features, W the 256 × 256 weights (stored output-major,
  so the layer multiplies by its transpose) and b the bias, entry (i, j) of the result is

      Σ_k A(i,k) · ( Σ_l x(k,l) · W(j,l) )  +  b(j) :

  first project every node's features (`proj`), then aggregate the projected rows along the graph. This is the
  grouping the kernel evaluates; the reference aggregates first and projects afterwards, and the two agree on finite
  inputs because a finite double sum of reals may be taken in either order and a real factor moves across a finite sum.
-/
import Idealize.ShloMosaic.PureOps.Ideal
import Idealize.ShloMosaic.Lib.ValueIdx

noncomputable section

namespace Cert.GraphConv

open Idealize.ShloMosaic Idealize.ShloMosaic.ValueIdx

/-- The adjacency matrix's shape. -/
abbrev SA : Shape := ⟨2, ![4096, 4096]⟩
/-- The features' (and the result's) shape. -/
abbrev SX : Shape := ⟨2, ![4096, 256]⟩
/-- The weights' shape. -/
abbrev SW : Shape := ⟨2, ![256, 256]⟩
/-- The bias's shape. -/
abbrev SB : Shape := ⟨1, ![256]⟩

/-- Node `k`'s features projected onto output channel `j`: row `k` of x against row `j` of W. -/
def proj (x : SX.Idx → EReal) (W : SW.Idx → EReal) (k : Fin 4096) (j : Fin 256) : EReal :=
  ∑ l : Fin 256, x (ix2 k l) * W (ix2 j l)

/-- Entry (i, j) of the layer's result: row `i` of A against column `j` of the projected features, plus the bias. -/
def entry (A : SA.Idx → EReal) (x : SX.Idx → EReal) (W : SW.Idx → EReal) (b : SB.Idx → EReal) (i : Fin 4096) (j : Fin 256) : EReal :=
  (∑ k : Fin 4096, A (ix2 i k) * proj x W k j) + b (ix1 j)

/-- The whole result array. -/
def G (A : SA.Idx → EReal) (x : SX.Idx → EReal) (W : SW.Idx → EReal) (b : SB.Idx → EReal) : SX.Idx → EReal :=
  fun p => entry A x W b (p 0) (p 1)

theorem G_ix2 (A : SA.Idx → EReal) (x : SX.Idx → EReal) (W : SW.Idx → EReal) (b : SB.Idx → EReal) (i : Fin 4096) (j : Fin 256) :
    G A x W b (ix2 i j) = entry A x W b i j := rfl

/-- Every entry of an array is a real number. -/
def AllReal {s : Shape} (v : s.Idx → EReal) : Prop := ∀ i, ∃ r : ℝ, v i = (r : EReal)

end Cert.GraphConv

end
-- ==== Proof.KiValue.lean ====
/-
  The idealized kernel's result array, as one function of the four arguments.

  The scratch holds the projected features: entry (k, j) is row k of x against row j of W, because the top 256
  rows of the side array are W transposed. The output block of grid point t holds, at (r, j), row 512·t + r of A
  against column j of the scratch, plus row 256 of the side array, which is the bias: that is entry (512·t + r, j)
  of the specification `G`. The eight blocks of 512 rows tile the 4096 rows, each is written back once, so the
  result array ends at `G`.
-/
import proofs.«142554_g27736898798368_cont_9to1_495_24_alg».proof.Proof.KiFrame
import proofs.«142554_g27736898798368_cont_9to1_495_24_alg».proof.Proof.Pieces
import proofs.«142554_g27736898798368_cont_9to1_495_24_alg».proof.Proof.Blocks
import proofs.«142554_g27736898798368_cont_9to1_495_24_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Fr Cert.GraphConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The four argument arrays as launched, typed by their literal shapes. -/
abbrev argA (c : Dev nD) : SA.Idx → EReal := m ((c : Thread nD τ).loc main_arg0)
abbrev argX (c : Dev nD) : SX.Idx → EReal := m ((c : Thread nD τ).loc main_arg1)
abbrev argW (c : Dev nD) : SW.Idx → EReal := m ((c : Thread nD τ).loc main_arg2)
abbrev argB (c : Dev nD) : SB.Idx → EReal := m ((c : Thread nD τ).loc main_arg3)

/-- The scratch holds the projected features. -/
theorem sc0_is_proj (c : Dev nD) (k : Fin 4096) (j : Fin 256) :
    (sc0 m c) (ix2 k j) = proj (argX m c) (argW m c) k j := by
  refine (sc0_apply m c k j).trans ?_
  unfold proj
  exact Finset.sum_congr rfl fun l _ => congrArg₂ (· * ·) (blkX_apply m c t0_0 k l) (blkS_top m c t0_0 l j _ rfl)

/-- Point `t`'s output block at (r, j) is entry (512·t + r, j) of the specification. -/
theorem outAt_is_entry (c : Dev nD) (t : Fin cfg0.N) (r : Fin 512) (j : Fin 256) (i : Fin 4096) (hi : i.val = 512 * t.val + r.val) :
    (outAt m c t) (ix2 r j) = entry (argA m c) (argX m c) (argW m c) (argB m c) i j := by
  refine (outAt_apply m c t r j).trans ?_
  unfold entry
  exact congrArg₂ (· + ·) (Finset.sum_congr rfl fun k _ => congrArg₂ (· * ·) (blkA_apply m c t r k i hi) (sc0_is_proj m c k j))
    (blkS_bias m c t j _ rfl)

/-- The output window's block index at point `t` is (t, 0). -/
theorem idxO : ∀ t : Fin cfg0.N, win0_3.index t (0 : Fin 2) = t.val ∧ win0_3.index t (1 : Fin 2) = 0 :=
  (by decide +kernel : ∀ t : Fin grid0.N, _)

/-- Every one of the eight row blocks is some point's. -/
theorem idx_onto : ∀ q : Fin 8, ∃ t : Fin cfg0.N, win0_3.index t = ![q.val, 0] :=
  (by decide +kernel : ∀ q : Fin 8, ∃ t : Fin grid0.N, win0_3.index t = ![q.val, 0])

/-- The output block of point `t`, entry by entry, is `G` at the block's place in the array. -/
theorem outAt_at (c : Dev nD) (t : Fin cfg0.N) (y : S512x256.Idx) :
    outAt m c t y = G (argA m c) (argX m c) (argW m c) (argB m c) (((cfg0.win 3).blk t).view.emb y) := by
  obtain ⟨r, j, rfl⟩ : ∃ (r : Fin 512) (j : Fin 256), y = ix2 r j := ⟨y 0, y 1, eq_ix2 y⟩
  have ht : t.val < 8 := lt_of_lt_of_eq t.isLt (show cfg0.N = 8 from N_0)
  obtain ⟨e0, e1⟩ := idxO t
  have hemb : ((cfg0.win 3).blk t).view.emb (ix2 r j) = ix2 (⟨512 * t.val + r.val, by omega⟩ : Fin 4096) j := by
    funext a; apply Fin.ext
    match a with
    | ⟨0, _⟩ => show win0_3.index t (0 : Fin 2) * 512 + 1 * r.val = 512 * t.val + r.val; omega
    | ⟨1, _⟩ => show win0_3.index t (1 : Fin 2) * 256 + 1 * j.val = j.val; omega
  rw [hemb, G_ix2]
  exact outAt_is_entry m c t r j _ rfl

/-- What point `t` writes back is block `t` of `G`. -/
theorem flushed_eq (c : Dev nD) (t : Fin cfg0.N) :
    (dats m 0 c).flushed 3 t = ((cfg0.win 3).blk t).view.read (Elt Ideal) (G (argA m c) (argX m c) (argW m c) (argB m c)) := by
  show (cfg0.win 3).cut (grid0.coords t) ((dats m 0 c).after 3 t) = _
  rw [after3]
  funext y
  exact outAt_at m c t y

/-- An index of the result array lies in point `t`'s block iff each coordinate lies in the block's range. -/
theorem mem_blk (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v4).slice (win0_3.rect t)).set ↔ _
  rw [View.set_slice_whole, Rect.mem_set_unit]
  exact Iff.rfl

/-- The eight blocks cover the result array: row `i` lies in the block of point `i / 512`. -/
theorem cover (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- The result array after the run is `G` of the arguments. -/
theorem final (c : Dev nD) : (dats m 0 c).arrAt 3 cfg0.N = G (argA m c) (argX m c) (argW m c) (argB m c) :=
  (dats m 0 c).arrAt_eq_of_cover 3 _ (fun t _ => flushed_eq m c t) cover

/-- The idealized kernel's run: it terminates with the result array at `G` of the arguments and the arguments unchanged. -/
theorem run : θ_run defs (onTc (τ := τ) (main (F := Ideal))) ⟨m, fun _ => 0, ρ⟩ fun r => ∀ c : Dev nD,
      r.2.mem ((c.tc : Thread nD τ).loc main_v4) = G (argA m c) (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.KValue

end
-- ==== Proof.RefValue.lean ====
import proofs.«142554_g27736898798368_cont_9to1_495_24_alg».proof.Proof.Gen.ReferenceIdeal.Read
import proofs.«142554_g27736898798368_cont_9to1_495_24_alg».proof.Proof.Spec

/-
  The reference program's result, entry by entry, is the specification's array, as soon as every entry of the
  adjacency matrix, of the features and of the weights is a real number.

  The reference aggregates first and projects afterwards: its entry (i, j) is

      Σ_l ( Σ_k A(i,k) · x(k,l) ) · W(j,l)  +  b(j),

  the inner sum over the 4096 nodes, the outer one over the 256 input channels. The specification groups the same
  products the other way, Σ_k A(i,k) · ( Σ_l x(k,l) · W(j,l) ) + b(j). On real entries the two are one double sum
  Σ_k Σ_l A(i,k) · x(k,l) · W(j,l) read in its two orders: a factor moves into a finite sum, the two finite sums
  commute, and multiplication is associative. The bias is only added at the end and needs no hypothesis.
-/

noncomputable section

open scoped BigOperators

namespace Cert.ReferenceIdeal.RefValue

open Idealize.ShloMosaic Idealize.ShloMosaic.ValueIdx

/-! ## The law, over any two finite index types -/

/-- The inclusion of the reals into the extended reals carries a finite sum to the sum of the inclusions. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: Σ_l ( Σ_k a(k) · x(k,l) ) · w(l) = Σ_k a(k) · ( Σ_l x(k,l) · w(l) ). Both are the double sum of
    a(k) · x(k,l) · w(l): distribute each outer factor over its inner sum, exchange the two sums, reassociate. -/
theorem regroup_real {K L : Type*} [Fintype K] [Fintype L] (a : K → ℝ) (x : K → L → ℝ) (w : L → ℝ) :
    ∑ l, (∑ k, a k * x k l) * w l = ∑ k, a k * ∑ l, x k l * w l := by
  simp only [Finset.sum_mul, Finset.mul_sum]
  rw [Finset.sum_comm]
  exact Finset.sum_congr rfl fun k _ => Finset.sum_congr rfl fun l _ => mul_assoc _ _ _

/-- The same law at the extended reals, for entries that are all real: name the real entries, pull the inclusion out of
    every product and every finite sum, and apply the law over the reals. -/
theorem regroup {K L : Type*} [Fintype K] [Fintype L] (a : K → EReal) (x : K → L → EReal) (w : L → EReal)
    (ha : ∀ k, ∃ r : ℝ, a k = (r : EReal)) (hx : ∀ k l, ∃ r : ℝ, x k l = (r : EReal))
    (hw : ∀ l, ∃ r : ℝ, w l = (r : EReal)) :
    ∑ l, (∑ k, a k * x k l) * w l = ∑ k, a k * ∑ l, x k l * w l := by
  choose a' ha using ha
  choose x' hx using hx
  choose w' hw using hw
  simp only [ha, hx, hw, ← EReal.coe_mul, ← coe_finsum]
  exact congrArg _ (regroup_real a' x' w')

/-! ## The reference's index functions, at an index given by its coordinates -/

/-- The projection's left operand (the aggregated features) is read at row i, channel l. -/
theorem lidx2 (i : Fin 4096) (j l : Fin 256) : Read.lidx_main_v2 (ix2 i j) l = ix2 i l :=
  funext fun a => Fin.ext (by match a with | ⟨0, _⟩ => rfl | ⟨1, _⟩ => rfl)

/-- The projection's right operand (the transposed weights) is read at row l, column j. -/
theorem ridx2 (i : Fin 4096) (j l : Fin 256) : Read.ridx_main_v2 (ix2 i j) l = ix2 l j :=
  funext fun a => Fin.ext (by match a with | ⟨0, _⟩ => rfl | ⟨1, _⟩ => rfl)

/-- The transpose at (l, j) reads the weights at (j, l). -/
theorem idx1 (l j : Fin 256) : Read.idx_main_v1 (ix2 l j) = ix2 j l :=
  funext fun a => Fin.ext (by match a with | ⟨0, _⟩ => rfl | ⟨1, _⟩ => rfl)

/-- The aggregation's left operand (the adjacency matrix) is read at row i, column k. -/
theorem lidx0 (i k : Fin 4096) (l : Fin 256) : Read.lidx_main_v0 (ix2 i l) k = ix2 i k :=
  funext fun a => Fin.ext (by match a with | ⟨0, _⟩ => rfl | ⟨1, _⟩ => rfl)

/-- The aggregation's right operand (the features) is read at node k, channel l. -/
theorem ridx0 (i k : Fin 4096) (l : Fin 256) : Read.ridx_main_v0 (ix2 i l) k = ix2 k l :=
  funext fun a => Fin.ext (by match a with | ⟨0, _⟩ => rfl | ⟨1, _⟩ => rfl)

/-- The two broadcasts of the bias read it at the output channel j. -/
theorem idx34 (i : Fin 4096) (j : Fin 256) : Read.idx_main_v3 (Read.idx_main_v4 (ix2 i j)) = ix1 j :=
  funext fun a => Fin.ext (by match a with | ⟨0, _⟩ => rfl)

/-! ## The reference's entries -/

/-- Entry (i, l) of the aggregated features: Σ_k A(i,k) · x(k,l). -/
theorem aggregate_apply (A : (⟨S4096x4096, .f32⟩ : BufTy).Contents (Elt Ideal))
    (x : (⟨S4096x256, .f32⟩ : BufTy).Contents (Elt Ideal)) (i : Fin 4096) (l : Fin 256) :
    Read.val_main_v0 (F := Ideal) A x (ix2 i l) = ∑ k : Fin 4096, A (ix2 i k) * x (ix2 k l) := by
  rw [Read.val_main_v0_apply]
  exact Finset.sum_congr rfl fun k _ => by rw [lidx0, ridx0]

/-- Entry (l, j) of the transposed weights: W(j,l). -/
theorem transpose_apply' (W : (⟨S256x256, .f32⟩ : BufTy).Contents (Elt Ideal)) (l j : Fin 256) :
    Read.val_main_v1 (F := Ideal) W (ix2 l j) = W (ix2 j l) := by
  rw [Read.val_main_v1_apply, idx1]

/-- Entry (i, j) of the broadcast bias: b(j). -/
theorem bias_apply (b : (⟨S256, .f32⟩ : BufTy).Contents (Elt Ideal)) (i : Fin 4096) (j : Fin 256) :
    Read.val_main_v4 (F := Ideal) b (ix2 i j) = b (ix1 j) := by
  rw [Read.val_main_v4_apply, Read.val_main_v3_apply, idx34]

/-- Entry (i, j) of the reference's result, as the program groups it: aggregate, then project, then add the bias. -/
theorem ref_apply (A : (⟨S4096x4096, .f32⟩ : BufTy).Contents (Elt Ideal))
    (x : (⟨S4096x256, .f32⟩ : BufTy).Contents (Elt Ideal)) (W : (⟨S256x256, .f32⟩ : BufTy).Contents (Elt Ideal))
    (b : (⟨S256, .f32⟩ : BufTy).Contents (Elt Ideal)) (i : Fin 4096) (j : Fin 256) :
    Read.val_main_v5 (F := Ideal) A x W b (ix2 i j)
      = (∑ l : Fin 256, (∑ k : Fin 4096, A (ix2 i k) * x (ix2 k l)) * W (ix2 j l)) + b (ix1 j) := by
  rw [Read.val_main_v5_apply, Ideal.addf_def, Read.val_main_v2_apply, bias_apply]
  refine congrArg (· + b (ix1 j)) ?_
  exact Finset.sum_congr rfl fun l _ => by rw [lidx2, ridx2, aggregate_apply, transpose_apply']

/-- The reference computes the specification's array on real inputs. -/
theorem ref_is_G (A : (⟨Cert.ReferenceIdeal.S4096x4096, .f32⟩ : BufTy).Contents (Elt Ideal))
    (x : (⟨Cert.ReferenceIdeal.S4096x256, .f32⟩ : BufTy).Contents (Elt Ideal))
    (W : (⟨Cert.ReferenceIdeal.S256x256, .f32⟩ : BufTy).Contents (Elt Ideal))
    (b : (⟨Cert.ReferenceIdeal.S256, .f32⟩ : BufTy).Contents (Elt Ideal))
    (hA : Cert.GraphConv.AllReal A) (hx : Cert.GraphConv.AllReal x) (hW : Cert.GraphConv.AllReal W) :
    Cert.ReferenceIdeal.Read.val_main_v5 (F := Ideal) A x W b = Cert.GraphConv.G A x W b := by
  funext p
  obtain ⟨i, j, rfl⟩ : ∃ (i : Fin 4096) (j : Fin 256), p = ix2 i j := ⟨p 0, p 1, eq_ix2 p⟩
  rw [ref_apply, Cert.GraphConv.G_ix2]
  unfold Cert.GraphConv.entry Cert.GraphConv.proj
  refine congrArg (· + b (ix1 j)) ?_
  exact regroup (fun k => A (ix2 i k)) (fun k l => x (ix2 k l)) (fun l => W (ix2 j l))
    (fun k => hA (ix2 i k)) (fun k l => hx (ix2 k l)) (fun l => hW (ix2 j l))

end Cert.ReferenceIdeal.RefValue

end
-- ==== Proof.Finite.lean ====
/-
  From the precondition "every float input is finite" to "every entry of A, x, W and b is a real number".

  The precondition compares, entry by entry, the absolute value max(a, -a) of each input against the bit
  pattern 0x7F800000, which denotes +∞ in the extended reals; it joins the comparisons of one array by a
  conjunction over all of its entries, and the four arrays' results by three further conjunctions. The claim
  is that the outcome is the bit 1. A conjunction of bits is 1 only when each of its members is 1, so every
  entry a of every input has max(a, -a) < +∞. That rules out a = +∞ (then a itself is +∞) and a = -∞ (then
  -a is +∞); what is left of the extended reals is the real numbers.
-/
import proofs.«142554_g27736898798368_cont_9to1_495_24_alg».proof.Pre_finite_inputs
import proofs.«142554_g27736898798368_cont_9to1_495_24_alg».proof.Proof.Gen.Pre_finite_inputs
import proofs.«142554_g27736898798368_cont_9to1_495_24_alg».proof.Proof.Spec
import Idealize.ShloMosaic.PureOps.Ideal
import Idealize.ShloMosaic.Lib.ReduceAll
import Idealize.ShloMosaic.Lib.ValueIdx

noncomputable section

namespace Cert.GraphConv

open Idealize.ShloMosaic Idealize.ShloMosaic.ValueIdx

/-- One entry. The pattern 0x7F800000 has sign 0, exponent all ones and fraction 0, so it denotes +∞. If the
    comparison max(a, -a) < +∞ comes out as the bit 1 then a is neither -∞ (where -a = +∞) nor +∞, hence a
    real number: the three cases of an extended real are checked one by one. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = (⊤ : EReal) := by simp [Ideal.ofBits, Ideal.ieee]
  rw [htop] at h
  induction a using EReal.rec with
  | bot => simp [Ideal.cmp] at h
  | coe r => exact ⟨r, rfl⟩
  | top => simp [Ideal.cmp] at h

/-- One array, of any shape. The conjunction, over ALL entries of v, of the bits "max(v i, -(v i)) < +∞" lands
    in an array with a single index (the empty index of rank 0). If it is 1 there, each member of the conjunction
    is 1, and by the entry-wise fact every v i is a real number. -/
theorem allReal_of_all_abs_lt_inf {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf v)
            (broadcastInDim s ![] hb (constant (F := Ideal) Cert.Pre_finite_inputs.S_ .f32 0x7F800000#32)))
          (constantI Cert.Pre_finite_inputs.S_ 1 1#1) hr hu j = 1#1) :
    AllReal v := by
  -- an index of a rank-0 array is a function out of the empty type, so there is only one
  haveI : Subsingleton Cert.Pre_finite_inputs.S_.Idx := ⟨fun a b => funext fun d => d.elim0⟩
  intro i
  -- entry i of the compared array is the comparison of max(v i, -(v i)) with the broadcast pattern of +∞
  exact real_of_abs_lt_inf (v i) (Host.reduce_andi_all _ _ hr hu j e i)

/-- The four arrays. The precondition's single bit is ((all A ∧ all x) ∧ all W) ∧ all b; being 1, each of the
    four conjunctions over an array is 1, and the one-array fact applies to each. -/
theorem allReal_of_pre (A : FVec Ideal Cert.Pre_finite_inputs.S4096x4096 .f32) (x : FVec Ideal Cert.Pre_finite_inputs.S4096x256 .f32) (W : FVec Ideal Cert.Pre_finite_inputs.S256x256 .f32) (b : FVec Ideal Cert.Pre_finite_inputs.S256 .f32)
    (h : Cert.Pre_finite_inputs.fn (F := Ideal) A x W b = fun _ => 1#1) :
    AllReal A ∧ AllReal x ∧ AllReal W ∧ AllReal b := by
  -- the claim at the result's only index
  have h0 := congrFun h ValueIdx.ix0
  dsimp only [Cert.Pre_finite_inputs.fn, Cert.Pre_finite_inputs.fn_part1] at h0
  -- split the three binary conjunctions, outermost first
  obtain ⟨h123, h4⟩ := IntOp.andi_eq_one.1 h0
  obtain ⟨h12, h3⟩ := IntOp.andi_eq_one.1 h123
  obtain ⟨h1, h2⟩ := IntOp.andi_eq_one.1 h12
  exact ⟨allReal_of_all_abs_lt_inf A _ _ _ _ h1, allReal_of_all_abs_lt_inf x _ _ _ _ h2,
    allReal_of_all_abs_lt_inf W _ _ _ _ h3, allReal_of_all_abs_lt_inf b _ _ _ _ h4⟩

end Cert.GraphConv

end
-- ==== Proof.lean ====
/-
  The certificate of a graph-convolution layer, out = (A · x) · Wᵀ + b, computed by a kernel that regroups the
  product as A · (x · Wᵀ).

  The kernel joins Wᵀ and b into one side array on the host, then runs one pipelined region of eight grid points: the
  first point projects the features, y = x · Wᵀ, into a scratch buffer that stays resident; every point multiplies its
  512 rows of A by y and adds the bias row. The reference multiplies A by x first and projects afterwards. At the
  ideal values (floats are extended reals, the bf16 roundings are the identity, a matrix product into a zero
  accumulator is the plain sum of products) both compute, at (i, j),

      Σ_k Σ_l A(i,k) · x(k,l) · W(j,l) + b(j),

  the kernel grouped as Σ_k A(i,k) · (Σ_l x(k,l) · W(j,l)) and the reference as Σ_l (Σ_k A(i,k) · x(k,l)) · W(j,l).
  On the extended reals the two groupings differ at infinities, so the precondition is used: every input is finite,
  the entries are reals, and over the reals a finite double sum may be taken in either order and a factor moves
  across a finite sum.

  The three frame conjuncts: each kernel program's is its frame run with the arrays' final contents dropped; the
  reference's is its run with the result dropped. The idealization rewrote nothing, so `preserves` asks nothing.
-/
import proofs.«142554_g27736898798368_cont_9to1_495_24_alg».proof.Defs
import proofs.«142554_g27736898798368_cont_9to1_495_24_alg».proof.Proof.Gen.Kernel
import proofs.«142554_g27736898798368_cont_9to1_495_24_alg».proof.Proof.Gen.KernelIdeal
import proofs.«142554_g27736898798368_cont_9to1_495_24_alg».proof.Proof.Gen.ReferenceIdeal
import proofs.«142554_g27736898798368_cont_9to1_495_24_alg».proof.Proof.Gen.ReferenceIdeal.Run
import proofs.«142554_g27736898798368_cont_9to1_495_24_alg».proof.Proof.Gen.ReferenceIdeal.Read
import proofs.«142554_g27736898798368_cont_9to1_495_24_alg».proof.Proof.Gen.Pre_finite_inputs
import proofs.«142554_g27736898798368_cont_9to1_495_24_alg».proof.Proof.KFrame
import proofs.«142554_g27736898798368_cont_9to1_495_24_alg».proof.Proof.KiFrame
import proofs.«142554_g27736898798368_cont_9to1_495_24_alg».proof.Proof.KiValue
import proofs.«142554_g27736898798368_cont_9to1_495_24_alg».proof.Proof.RefValue
import proofs.«142554_g27736898798368_cont_9to1_495_24_alg».proof.Proof.Finite
import proofs.«142554_g27736898798368_cont_9to1_495_24_alg».proof.Proof.Spec
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments unchanged. -/
theorem frame_k : Cert.frame_Kernel := fun m ρ _ => Cert.Kernel.Fr.frame (F := Bits) m ρ

/-- So does the idealized kernel. -/
theorem frame_ki : Cert.frame_KernelIdeal := fun m ρ _ => Cert.KernelIdeal.Fr.frame (F := Ideal) m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- From memories that agree on finite arguments both idealized programs end at the specification `G` of those
    arguments: the kernel by its value run, the reference because its composed term is `G` on real entries. -/
theorem algebraic : Cert.algebraic_KernelIdeal_ReferenceIdeal := by
  intro m ρ m' ρ' hpre hagree
  refine ⟨fun c => Cert.GraphConv.G (Cert.KernelIdeal.KValue.argA m c) (Cert.KernelIdeal.KValue.argX m c) (Cert.KernelIdeal.KValue.argW m c) (Cert.KernelIdeal.KValue.argB m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hA, hx, hW, -⟩ := Cert.GraphConv.allReal_of_pre _ _ _ _ (hpre c)
  rw [(hagree c).1, (hagree c).2.1, (hagree c).2.2.1, (hagree c).2.2.2, Cert.ReferenceIdeal.Read.val_main_v5_eq]
  exact Cert.ReferenceIdeal.RefValue.ref_is_G _ _ _ _ hA hx hW

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
